-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x128 .f32) (main_arg1 : IVec S2x800000 32) (main_arg2 : FVec F S800000 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  main_v8
-- ==== Kernel.lean ====
abbrev S50000x128 : Shape := ⟨2, ![50000, 128]⟩
abbrev S2x800000 : Shape := ⟨2, ![2, 800000]⟩
abbrev S800000 : Shape := ⟨1, ![800000]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S16000x1 : Shape := ⟨2, ![16000, 1]⟩
abbrev S800000x128 : Shape := ⟨2, ![800000, 128]⟩
abbrev S16000x128 : Shape := ⟨2, ![16000, 128]⟩
abbrev S128 : Shape := ⟨1, ![128]⟩
abbrev S1x128 : Shape := ⟨2, ![1, 128]⟩
abbrev S50000x640 : Shape := ⟨2, ![50000, 640]⟩
abbrev S2000x128 : Shape := ⟨2, ![2000, 128]⟩
abbrev S2000x640 : Shape := ⟨2, ![2000, 640]⟩

abbrev nBuf : Space → Nat
  | .hbm => 90
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S50000, .i1⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000, .f32⟩
  | .hbm, ⟨28, _⟩ => ⟨S800000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S800000x1, .f32⟩
  | .hbm, ⟨39, _⟩ => ⟨S800000x1, .f32⟩
  | .hbm, ⟨40, _⟩ => ⟨S800000x1, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S_, .f32⟩
  | .hbm, ⟨84, _⟩ => ⟨S128, .f32⟩
  | .hbm, ⟨85, _⟩ => ⟨S1x128, .f32⟩
  | .hbm, ⟨86, _⟩ => ⟨S_, .f32⟩
  | .hbm, ⟨87, _⟩ => ⟨S1x128, .f32⟩
  | .hbm, ⟨88, _⟩ => ⟨S1x128, .f32⟩
  | .hbm, ⟨89, _⟩ => ⟨S50000x640, .f32⟩
  | .local _ .vmem, ⟨0, _⟩ => ⟨S16000x1, .f32⟩
  | .local _ .vmem, ⟨1, _⟩ => ⟨S16000x1, .f32⟩
  | .local _ .vmem, ⟨2, _⟩ => ⟨S16000x1, .f32⟩
  | .local _ .vmem, ⟨3, _⟩ => ⟨S16000x1, .f32⟩
  | .local _ .vmem, ⟨4, _⟩ => ⟨S16000x1, .f32⟩
  | .local _ .vmem, ⟨5, _⟩ => ⟨S16000x1, .f32⟩
  | .local _ .vmem, ⟨6, _⟩ => ⟨S16000x1, .f32⟩
  | .local _ .vmem, ⟨7, _⟩ => ⟨S16000x1, .f32⟩
  | .local _ .vmem, ⟨8, _⟩ => ⟨S16000x128, .f32⟩
  | .local _ .vmem, ⟨9, _⟩ => ⟨S16000x128, .f32⟩
  | .local _ .vmem, ⟨10, _⟩ => ⟨S16000x1, .f32⟩
  | .local _ .vmem, ⟨11, _⟩ => ⟨S16000x1, .f32⟩
  | .local _ .vmem, ⟨12, _⟩ => ⟨S16000x128, .f32⟩
  | .local _ .vmem, ⟨13, _⟩ => ⟨S16000x128, .f32⟩
  | .local _ .vmem, ⟨14, _⟩ => ⟨S16000x128, .f32⟩
  | .local _ .vmem, ⟨15, _⟩ => ⟨S16000x128, .f32⟩
  | .local _ .vmem, ⟨16, _⟩ => ⟨S16000x1, .f32⟩
  | .local _ .vmem, ⟨17, _⟩ => ⟨S16000x1, .f32⟩
  | .local _ .vmem, ⟨18, _⟩ => ⟨S16000x128, .f32⟩
  | .local _ .vmem, ⟨19, _⟩ => ⟨S16000x128, .f32⟩
  | .local _ .vmem, ⟨20, _⟩ => ⟨S16000x128, .f32⟩
  | .local _ .vmem, ⟨21, _⟩ => ⟨S16000x128, .f32⟩
  | .local _ .vmem, ⟨22, _⟩ => ⟨S16000x1, .f32⟩
  | .local _ .vmem, ⟨23, _⟩ => ⟨S16000x1, .f32⟩
  | .local _ .vmem, ⟨24, _⟩ => ⟨S16000x128, .f32⟩
  | .local _ .vmem, ⟨25, _⟩ => ⟨S16000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S1x128, .f32⟩
  | .local _ .vmem, ⟨35, _⟩ => ⟨S2000x640, .f32⟩
  | .local _ .vmem, ⟨36, _⟩ => ⟨S2000x640, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_c_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_11 : Ref sig .tc := ⟨.hbm, 69, rfl⟩
abbrev main_v51 : Ref sig .tc := ⟨.hbm, 70, rfl⟩
abbrev main_v52 : Ref sig .tc := ⟨.hbm, 71, rfl⟩
abbrev main_c_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_cst_15 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc4_sem4_0 : DmaSem sig := 34
abbrev cc4_sem5_0 : DmaSem sig := 35
abbrev cc4_sem5_1 : DmaSem sig := 36

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S16000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x640 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  shapeCasts_S800000_S800000x1 : S800000.ShapeCasts S800000x1
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  broadcasts_S16000x1_S16000x128 : S16000x1.Broadcasts S16000x128
  bcast_S_S50000x128 : S_.BroadcastsInDim S50000x128 (![] : Fin 0 → Fin S50000x128.rank)
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  inb_S2000x128_S2000x128_0_0 : ∀ a, (![0, 0] : Fin 2 → Nat) a + S2000x128.size a ≤ S2000x128.size a
  h_S2000x128 : 0 < S2000x128.numel
  inb_S2000x640_S2000x128_0_0 : ∀ a, (![0, 0] : Fin 2 → Nat) a + S2000x128.size a ≤ S2000x640.size a
  shapeCasts_S2000x128_S2000x128 : S2000x128.ShapeCasts S2000x128
  inb_S2000x640_S2000x128_0_128 : ∀ a, (![0, 128] : Fin 2 → Nat) a + S2000x128.size a ≤ S2000x640.size a
  inb_S2000x640_S2000x128_0_256 : ∀ a, (![0, 256] : Fin 2 → Nat) a + S2000x128.size a ≤ S2000x640.size a
  inb_S2000x640_S2000x128_0_384 : ∀ a, (![0, 384] : Fin 2 → Nat) a + S2000x128.size a ≤ S2000x640.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x640_S2000x128_0_512 : ∀ a, (![0, 512] : Fin 2 → Nat) a + S2000x128.size a ≤ S2000x640.size a
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x1.size a ≤ S800000x1.size a
  hwx0_0 : ∀ i : grid0.Coords, EltTy.bits .f32 = 32 ∨ (Rect.block (s := S800000x1) S16000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x1.size a ≤ S800000x1.size a
  hwx0_1 : ∀ i : grid0.Coords, EltTy.bits .f32 = 32 ∨ (Rect.block (s := S800000x1) S16000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x1.size a ≤ S800000x1.size a
  hwx0_2 : ∀ i : grid0.Coords, EltTy.bits .f32 = 32 ∨ (Rect.block (s := S800000x1) S16000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x1.size a ≤ S800000x1.size a
  hwx0_3 : ∀ i : grid0.Coords, EltTy.bits .f32 = 32 ∨ (Rect.block (s := S800000x1) S16000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x128.size a ≤ S800000x128.size a
  hwx1_0 : ∀ i : grid1.Coords, EltTy.bits .f32 = 32 ∨ (Rect.block (s := S800000x128) S16000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16000x1.size a ≤ S800000x1.size a
  hwx1_1 : ∀ i : grid1.Coords, EltTy.bits .f32 = 32 ∨ (Rect.block (s := S800000x1) S16000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16000x128.size a ≤ S800000x128.size a
  hwx1_2 : ∀ i : grid1.Coords, EltTy.bits .f32 = 32 ∨ (Rect.block (s := S800000x128) S16000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x128.size a ≤ S800000x128.size a
  hwx2_0 : ∀ i : grid2.Coords, EltTy.bits .f32 = 32 ∨ (Rect.block (s := S800000x128) S16000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16000x1.size a ≤ S800000x1.size a
  hwx2_1 : ∀ i : grid2.Coords, EltTy.bits .f32 = 32 ∨ (Rect.block (s := S800000x1) S16000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16000x128.size a ≤ S800000x128.size a
  hwx2_2 : ∀ i : grid2.Coords, EltTy.bits .f32 = 32 ∨ (Rect.block (s := S800000x128) S16000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16000x128.size a ≤ S800000x128.size a
  hwx3_0 : ∀ i : grid3.Coords, EltTy.bits .f32 = 32 ∨ (Rect.block (s := S800000x128) S16000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16000x1.size a ≤ S800000x1.size a
  hwx3_1 : ∀ i : grid3.Coords, EltTy.bits .f32 = 32 ∨ (Rect.block (s := S800000x1) S16000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S16000x128.size a ≤ S800000x128.size a
  hwx3_2 : ∀ i : grid3.Coords, EltTy.bits .f32 = 32 ∨ (Rect.block (s := S800000x128) S16000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x640.size a ≤ S50000x640.size a
  hwx4_5 : ∀ i : grid4.Coords, EltTy.bits .f32 = 32 ∨ (Rect.block (s := S50000x640) S2000x640.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v18) S16000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S16000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S16000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S16000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S16000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S16000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S16000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S16000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S16000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S16000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S16000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S16000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S16000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v39) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v61) S2000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v65) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S2000x640.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S128 : Shape := ⟨1, ![128]⟩
abbrev S1x128 : Shape := ⟨2, ![1, 128]⟩
abbrev S50000x640 : Shape := ⟨2, ![50000, 640]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S50000, .i1⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000, .f32⟩
  | .hbm, ⟨28, _⟩ => ⟨S800000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S800000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S800000x1, .f32⟩
  | .hbm, ⟨49, _⟩ => ⟨S800000x128, .f32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S800000x1, .f32⟩
  | .hbm, ⟨65, _⟩ => ⟨S800000x128, .f32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .f32⟩
  | .hbm, ⟨80, _⟩ => ⟨S800000x1, .f32⟩
  | .hbm, ⟨81, _⟩ => ⟨S800000x128, .f32⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S_, .f32⟩
  | .hbm, ⟨88, _⟩ => ⟨S128, .f32⟩
  | .hbm, ⟨89, _⟩ => ⟨S1x128, .f32⟩
  | .hbm, ⟨90, _⟩ => ⟨S_, .f32⟩
  | .hbm, ⟨91, _⟩ => ⟨S1x128, .f32⟩
  | .hbm, ⟨92, _⟩ => ⟨S1x128, .f32⟩
  | .hbm, ⟨93, _⟩ => ⟨S50000x128, .f32⟩
  | .hbm, ⟨94, _⟩ => ⟨S50000x640, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_c_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_11 : Ref sig .tc := ⟨.hbm, 71, rfl⟩
abbrev main_v53 : Ref sig .tc := ⟨.hbm, 72, rfl⟩
abbrev main_v54 : Ref sig .tc := ⟨.hbm, 73, rfl⟩
abbrev main_c_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_cst_15 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  concatenates_S50000x128_S50000x128_S50000x128_S50000x128_S50000x128_S50000x640_d1 : Shape.Concatenates [S50000x128, S50000x128, S50000x128, S50000x128, S50000x128] S50000x640 1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The three whole-array functions the program's regions compute, stated once over the literal shapes.

  * `edgeWeight a b d`  : the symmetric-normalised edge weight, entry by entry the product `(a · b) · d`
    of three columns of length 800000 (the inverse root degree at the source, the raw weight, the inverse
    root degree at the target).
  * `scaleRows xg w`    : every gathered feature row scaled by its edge's weight: entry `(e, j)` is
    `xg (e, j) · w (e, 0)`, the weight column broadcast along the 128 features.
  * `assemble x x₁ x₂ x₃ μ` : the five blocks of 128 columns side by side, the last one the row `μ`
    repeated on every node: column `j` of node `n` is `x (n, j)`, `x₁ (n, j - 128)`, `x₂ (n, j - 256)`,
    `x₃ (n, j - 384)` or `μ (0, j - 512)` according to the block `j` falls in.
-/
import proofs.«178034_j81200651698780_1_alg».proof.KernelIdeal
import Idealize.ShloMosaic.Lib.Pipeline.Value

noncomputable section

namespace Cert.KernelIdeal.Val

open Idealize.ShloMosaic Cert.KernelIdeal

variable {F : FTy → Type} [FloatOps F]

/-- A column of 800000 entries broadcasts along 128 features. -/
theorem bc_col : S800000x1.BroadcastsInDim S800000x128 (![0, 1] : Fin 2 → Fin S800000x128.rank) := by decide
/-- One row of 128 entries broadcasts over 50000 nodes. -/
theorem bc_row : S1x128.BroadcastsInDim S50000x128 (![0, 1] : Fin 2 → Fin S50000x128.rank) := by decide
/-- Five blocks of 128 columns make 640 columns. -/
theorem cat5 : Shape.Concatenates [S50000x128, S50000x128, S50000x128, S50000x128, S50000x128] S50000x640 1 := by decide

/-- The edge weight: `(a · b) · d`, entry by entry. -/
def edgeWeight (a b d : FVec F S800000x1 .f32) : FVec F S800000x1 .f32 := mulf (mulf a b) d

/-- Gathered rows scaled by their edge's weight: `xg (e, j) · w (e, 0)`. -/
def scaleRows (xg : FVec F S800000x128 .f32) (w : FVec F S800000x1 .f32) : FVec F S800000x128 .f32 :=
  mulf xg (broadcastInDim S800000x128 ![0, 1] bc_col w)

/-- The five feature blocks side by side, the mean row repeated on every node. -/
def assemble (x x1 x2 x3 : FVec F S50000x128 .f32) (mu : FVec F S1x128 .f32) : FVec F S50000x640 .f32 :=
  concatenate S50000x640 1 [⟨S50000x128, x⟩, ⟨S50000x128, x1⟩, ⟨S50000x128, x2⟩, ⟨S50000x128, x3⟩,
    ⟨S50000x128, broadcastInDim S50000x128 ![0, 1] bc_row mu⟩] cat5

end Cert.KernelIdeal.Val

end
-- ==== Proof.WeightColumn.lean ====
/-
  The edge-weight column, two ways. The kernel multiplies three COLUMNS of shape [800000, 1], each a reshape of a
  vector of length 800000; the reference multiplies the three vectors and only then makes the product a column.
  Entry `(e, 0)` of either is `(A e · B e) · C e`: a reshape of a vector to a one-column matrix and the broadcast
  of the vector along a new unit axis both read entry `e` of the vector at `(e, 0)`.
-/
import proofs.«178034_j81200651698780_1_alg».proof.Proof.Spec

noncomputable section

namespace Cert.KernelIdeal.Val

open Idealize.ShloMosaic Cert.KernelIdeal

variable {F : FTy → Type} [FloatOps F]

/-- The vector index under the column index `(e, 0)`. -/
def colRow (i : S800000x1.Idx) : S800000.Idx := fun a => match a with
  | ⟨0, _⟩ => ⟨(i 0).val, (i 0).isLt⟩

/-- A vector reshaped to a column reads its entry `e` at `(e, 0)`. -/
theorem reshape_col_apply {α : Type} (A : S800000.Idx → α) (h : S800000.ShapeCasts S800000x1) (i : S800000x1.Idx) :
    shapeCast S800000x1 A h i = A (colRow i) := by
  refine shapeCast_apply A h i (colRow i) ?_
  rw [Shape.rowMajor_val_one, Shape.rowMajor_val_two]
  have h1 : (i 1).val < 1 := (i 1).isLt
  show (i 0).val = (i 0).val * 1 + (i 1).val
  omega

/-- A vector broadcast along a new trailing unit axis reads its entry `e` at `(e, 0)`. -/
theorem bcast_col_apply {α : Type} (A : S800000.Idx → α)
    (h : S800000.BroadcastsInDim S800000x1 (![0] : Fin 1 → Fin S800000x1.rank)) (i : S800000x1.Idx) :
    broadcastInDim S800000x1 ![0] h A i = A (colRow i) :=
  broadcastInDim_apply ![0] h A i (colRow i) (fun a => match a with
    | ⟨0, _⟩ => by show (i 0).val = if (800000 : Nat) = 1 then 0 else (i 0).val; rw [if_neg (by decide)])

/-- The product of the three reshaped columns is the column of the product of the three vectors. -/
theorem edgeWeight_reshape (A B C : FVec F S800000 .f32) (h : S800000.ShapeCasts S800000x1)
    (hb : S800000.BroadcastsInDim S800000x1 (![0] : Fin 1 → Fin S800000x1.rank)) :
    edgeWeight (shapeCast S800000x1 A h) (shapeCast S800000x1 B h) (shapeCast S800000x1 C h)
      = broadcastInDim S800000x1 ![0] hb (mulf (mulf A B) C) := by
  funext i
  rw [bcast_col_apply]
  unfold edgeWeight mulf
  show FloatOps.mulf (FloatOps.mulf (shapeCast S800000x1 A h i) (shapeCast S800000x1 B h i)) (shapeCast S800000x1 C h i) = _
  rw [reshape_col_apply, reshape_col_apply, reshape_col_apply]

end Cert.KernelIdeal.Val

end
-- ==== Proof.Region0.lean ====
/-
  Region 0: the edge-weight column.

  The region walks a grid of 50 points. At point `t` it reads rows `16000 t … 16000 t + 15999` of three columns
  of length 800000 (the inverse root degree at the source, the raw weight, the inverse root degree at the
  target), multiplies them entry by entry as `(a · b) · d`, and writes the 16000 products back to the same rows
  of the weight column. The four index maps are the same map `t ↦ (t, 0)`, so entry `(r, 0)` of the block a
  point reads is entry `(16000 t + r, 0)` of each column, and that is the entry of the weight column it writes.
  The 50 blocks of 16000 rows tile the 800000 rows exactly: row `e` lies in the block of point `e / 16000`.
  Hence, after the run, entry `e` of the weight column is `(a e · b e) · d e`: the column is `edgeWeight a b d`.
-/
import proofs.«178034_j81200651698780_1_alg».proof.Proof.Gen.KernelIdeal.Frame
import proofs.«178034_j81200651698780_1_alg».proof.Proof.Spec
import Idealize.ShloMosaic.Lib.Pipeline.Value

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

/-- The zero offsets of the body's one rectangle, as the constant function. -/
theorem zero_off0 : (![0, 0] : Fin 2 → Nat) = fun _ => 0 := funext fun a => by fin_cases a <;> rfl

/-- The body's product of its three loaded blocks: the casts to the same shape are identities, leaving
    `(x0 · x1) · x2` entry by entry. -/
theorem weight_pay_eq (x0 x1 x2 : Vec F S16000x1 .f32) : k0_pay1 x0 x1 x2 = mulf (mulf x0 x1) x2 := by
  unfold k0_pay1
  rw [shapeCast_self, shapeCast_self, shapeCast_self]

/-- The four index maps over the 50 points: every window's block index at point `t` is `(t, 0)`. -/
theorem block_index0 : ∀ t : Fin cfg0.N,
    win0_3.index t (0 : Fin 2) = t.val ∧ win0_3.index t (1 : Fin 2) = 0
    ∧ win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2) :=
  (by decide +kernel : ∀ t : Fin grid0.N, _)

/-- What point `t` writes back is rows `16000 t … 16000 t + 15999` of the edge-weight column of the three
    columns as the region finds them. -/
theorem weight_flushed_eq (c : Dev nD) (t : Fin cfg0.N) :
    (dat0 (F := F) V c).flushed 3 t
      = ((cfg0.win 3).blk t).view.read (Elt F) (edgeWeight (V c main_v18) (V c main_v27) (V c main_v26)) := by
  show (cfg0.win 3).cut (grid0.coords t) ((dat0 V c).after 3 t) = _
  rw [after0_3]
  unfold out0_3
  rw [View.canon_unit_zero zero_off0]
  simp only [View.ld_unit_zero (S := S16000x1) zero_off0]
  rw [weight_pay_eq]
  obtain ⟨e0, e1, a0, a1, b0, b1, d0, d1⟩ := block_index0 t
  funext j
  show FloatOps.mulf (FloatOps.mulf (V c main_v18 (((cfg0.win 0).blk t).view.emb j)) (V c main_v27 (((cfg0.win 1).blk t).view.emb j)))
        (V c main_v26 (((cfg0.win 2).blk t).view.emb j))
      = FloatOps.mulf (FloatOps.mulf (V c main_v18 (((cfg0.win 3).blk t).view.emb j)) (V c main_v27 (((cfg0.win 3).blk t).view.emb j)))
        (V c main_v26 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 16000 + 1 * (j 0).val = win0_3.index t (0 : Fin 2) * 16000 + 1 * (j 0).val; omega
    | ⟨1, _⟩ => show win0_0.index t (1 : Fin 2) * 1 + 1 * (j 1).val = win0_3.index t (1 : Fin 2) * 1 + 1 * (j 1).val; omega
  have h1 : ((cfg0.win 1).blk t).view.emb j = ((cfg0.win 3).blk t).view.emb j := by
    funext a; apply Fin.ext
    match a with
    | ⟨0, _⟩ => show win0_1.index t (0 : Fin 2) * 16000 + 1 * (j 0).val = win0_3.index t (0 : Fin 2) * 16000 + 1 * (j 0).val; omega
    | ⟨1, _⟩ => show win0_1.index t (1 : Fin 2) * 1 + 1 * (j 1).val = win0_3.index t (1 : Fin 2) * 1 + 1 * (j 1).val; omega
  have h2 : ((cfg0.win 2).blk t).view.emb j = ((cfg0.win 3).blk t).view.emb j := by
    funext a; apply Fin.ext
    match a with
    | ⟨0, _⟩ => show win0_2.index t (0 : Fin 2) * 16000 + 1 * (j 0).val = win0_3.index t (0 : Fin 2) * 16000 + 1 * (j 0).val; omega
    | ⟨1, _⟩ => show win0_2.index t (1 : Fin 2) * 1 + 1 * (j 1).val = win0_3.index t (1 : Fin 2) * 1 + 1 * (j 1).val; omega
  rw [h0, h1, h2]

/-- An entry of the weight column is in point `t`'s block iff each coordinate is in the block's range on its axis. -/
theorem weight_mem_blk (t : Fin cfg0.N) (i : S800000x1.Idx) :
    i ∈ ((cfg0.win 3).blk t).view.set ↔ ∀ a : Fin 2, win0_3.index t a * S16000x1.size a ≤ (i a).val
      ∧ (i a).val < win0_3.index t a * S16000x1.size a + S16000x1.size a := by
  show i ∈ ((View.whole main_v28).slice (win0_3.rect t)).set ↔ _
  rw [View.set_slice_whole, Rect.mem_set_unit]
  exact Iff.rfl

/-- The 50 blocks of 16000 rows tile the column: row `e` is in the block of point `e / 16000`. -/
theorem weight_cover (i : S800000x1.Idx) :
    ∃ t : Fin cfg0.N, (cfg0.win 3).flush t = true ∧ i ∈ ((cfg0.win 3).blk t).view.set := by
  have hi0 : (i 0).val < 800000 := (i 0).isLt
  have hi1 : (i 1).val < 1 := (i 1).isLt
  have hN : (i 0).val / 16000 < cfg0.N := by
    show (i 0).val / 16000 < grid0.N
    rw [N_0]; omega
  refine ⟨⟨(i 0).val / 16000, hN⟩, flush0_3 _, ?_⟩
  obtain ⟨e0, e1, -⟩ := block_index0 ⟨(i 0).val / 16000, hN⟩
  have e0' : win0_3.index ⟨(i 0).val / 16000, hN⟩ (0 : Fin 2) = (i 0).val / 16000 := e0
  rw [weight_mem_blk]
  intro a
  match a with
  | ⟨0, _⟩ =>
    show win0_3.index ⟨(i 0).val / 16000, hN⟩ (0 : Fin 2) * 16000 ≤ (i 0).val
      ∧ (i 0).val < win0_3.index ⟨(i 0).val / 16000, hN⟩ (0 : Fin 2) * 16000 + 16000
    omega
  | ⟨1, _⟩ =>
    show win0_3.index ⟨(i 0).val / 16000, hN⟩ (1 : Fin 2) * 1 ≤ (i 1).val
      ∧ (i 1).val < win0_3.index ⟨(i 0).val / 16000, hN⟩ (1 : Fin 2) * 1 + 1
    omega

/-- After the region, the weight column is the edge weight of the three columns: entry `e` is `(a e · b e) · d e`. -/
theorem region0_value (c : Dev nD) :
    (dat0 (F := F) V c).arrAt 3 cfg0.N = edgeWeight (V c main_v18) (V c main_v27) (V c main_v26) :=
  (dat0 (F := F) V c).arrAt_eq_of_cover 3 _ (fun t _ => weight_flushed_eq V c t) weight_cover

end Cert.KernelIdeal.Val

end
-- ==== Proof.Region1.lean ====
/-
  Launch 1 of the row-scaling kernel, read as one function of the arrays it finds.

  The grid has 50 points. Point `t` reads rows `16000·t … 16000·t + 15999` of the gathered features
  `main_v35 : [800000, 128]` and the same rows of the weight column `main_v28 : [800000, 1]`, and writes the same
  rows of `main_v36 : [800000, 128]`. Entry `(r, j)` of the block it writes is `x (r, j) · w (r, 0)`: the block's
  weight column broadcast along the 128 features. The 50 blocks of 16000 rows tile the 800000 rows exactly, so after
  the run entry `(e, j)` of `main_v36` is `main_v35 (e, j) · main_v28 (e, 0)`, which is `scaleRows`.

  * `scaledBlock1`, `scaleRows_apply1` : the body's block and `scaleRows`, entry by entry.
  * `blockIndex1` : at point `t` all three windows sit at block row `t`, block column 0.
  * `features1`, `weights1` : an input block's entry is the array's entry at the block's offset plus the entry's own.
  * `flushed_eq1` : what point `t` writes back is block `t` of `scaleRows` of the two arrays.
  * `mem_blk1`, `covered1` : row `e` lies in the block of point `e / 16000`.
  * `region1_value` : the array after the run.
-/
import proofs.«178034_j81200651698780_1_alg».proof.Proof.Gen.KernelIdeal.Frame
import proofs.«178034_j81200651698780_1_alg».proof.Proof.Spec
import Idealize.ShloMosaic.Lib.Pipeline.Value

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

/-- The body reads and writes its blocks whole: from offsets zero on both axes. -/
theorem zeroOff1 : (![0, 0] : Fin 2 → Nat) = fun _ => 0 := funext fun a => by fin_cases a <;> rfl

/-- The entry of a block's weight column that row `y 0` of the block is scaled by: `(y 0, 0)`. -/
def rowOf1 (y : S16000x128.Idx) : S16000x1.Idx := fun a =>
  match a with
  | ⟨0, _⟩ => ⟨(y 0).val, (y 0).isLt⟩
  | ⟨1, _⟩ => ⟨0, Nat.one_pos⟩

/-- THE BLOCK THE BODY WRITES, entry by entry: `x0 (r, j) · x1 (r, 0)`. The column index `k` is any one on row
    `r`; its second coordinate ranges over one value. -/
theorem scaledBlock1 (x0 : Vec F S16000x128 .f32) (x1 : Vec F S16000x1 .f32) (y : S16000x128.Idx) (k : S16000x1.Idx)
    (hk : (k 0).val = (y 0).val) :
    k1_pay1 x0 x1 y = FloatOps.mulf (x0 y) (x1 k) := by
  unfold k1_pay1
  simp only [shapeCast_self]
  show FloatOps.mulf (x0 y) (broadcastTo S16000x128 x1 broadcasts_S16000x1_S16000x128 y) = _
  rw [broadcastTo_apply x1 broadcasts_S16000x1_S16000x128 y k]
  intro a
  match a with
  | ⟨0, _⟩ => exact hk
  | ⟨1, _⟩ => exact Nat.lt_one_iff.mp (k 1).isLt

/-- `scaleRows`, entry by entry: `xg (e, j) · w (e, 0)`, the column index `k` any one on row `e`. -/
theorem scaleRows_apply1 (xg : FVec F S800000x128 .f32) (w : FVec F S800000x1 .f32) (i : S800000x128.Idx) (k : S800000x1.Idx)
    (hk : (k 0).val = (i 0).val) :
    scaleRows xg w i = FloatOps.mulf (xg i) (w k) := by
  unfold scaleRows
  show FloatOps.mulf (xg i) (broadcastInDim S800000x128 ![0, 1] bc_col w i) = _
  rw [broadcastInDim_apply ![0, 1] bc_col w i k]
  intro a
  match a with
  | ⟨0, _⟩ => exact hk
  | ⟨1, _⟩ => exact Nat.lt_one_iff.mp (k 1).isLt

/-- WHERE THE WINDOWS SIT at point `t`: the features' and the weights' blocks at the output's block row, every
    block column 0, and the output's block row is `t` itself. Decided once over the 50 points. -/
theorem blockIndex1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (0 : Fin 2) = t.val
    ∧ win1_2.index t (1 : Fin 2) = 0 :=
  (by decide +kernel : ∀ t : Fin grid1.N, _)

/-- An entry of the features' block at point `t` is the array's entry at the block's place. -/
theorem features1 (c : Dev nD) (t : Fin cfg1.N) (y : S16000x128.Idx) :
    iblk1 V c 0 t y = V c main_v35 (((cfg1.win 0).blk t).view.emb y) := rfl

/-- An entry of the weights' block at point `t` is the column's entry at the block's place. -/
theorem weights1 (c : Dev nD) (t : Fin cfg1.N) (k : S16000x1.Idx) :
    iblk1 V c 1 t k = V c main_v28 (((cfg1.win 1).blk t).view.emb k) := rfl

/-- WHAT POINT `t` WRITES BACK is block `t` of `scaleRows` of the features and the weights as the launch finds
    them. Entry `(r, j)` of the block is row `16000·t + r` of the array on every window: a block's coordinate is
    its block index times the block's extent plus the coordinate inside the block, and the three block rows agree. -/
theorem flushed_eq1 (c : Dev nD) (t : Fin cfg1.N) :
    (dat1 (F := F) V c).flushed 2 t
      = ((cfg1.win 2).blk t).view.read (Elt F) (scaleRows (V c main_v35) (V c main_v28)) := by
  show (cfg1.win 2).cut (grid1.coords t) ((dat1 V c).after 2 t) = _
  rw [after1_2]
  unfold out1_2
  rw [View.canon_unit_zero zeroOff1]
  simp only [View.ld_unit_zero (S := S16000x128) zeroOff1, View.ld_unit_zero (S := S16000x1) zeroOff1]
  obtain ⟨e0, e1, e2, e3, e4, e5⟩ := blockIndex1 t
  funext y
  refine (scaledBlock1 _ _ y (rowOf1 y) rfl).trans ?_
  rw [features1, weights1]
  show _ = scaleRows (V c main_v35) (V c main_v28) (((cfg1.win 2).blk t).view.emb y)
  -- the features' block and the output's block sit over the same rows and columns
  have h0 : ((cfg1.win 0).blk t).view.emb y = ((cfg1.win 2).blk t).view.emb y := by
    funext a; apply Fin.ext
    match a with
    | ⟨0, _⟩ => show win1_0.index t (0 : Fin 2) * 16000 + 1 * (y 0).val = win1_2.index t (0 : Fin 2) * 16000 + 1 * (y 0).val; omega
    | ⟨1, _⟩ => show win1_0.index t (1 : Fin 2) * 128 + 1 * (y 1).val = win1_2.index t (1 : Fin 2) * 128 + 1 * (y 1).val; omega
  -- the weight read is on the output entry's row
  rw [scaleRows_apply1 _ _ _ (((cfg1.win 1).blk t).view.emb (rowOf1 y)) (by
    show win1_1.index t (0 : Fin 2) * 16000 + 1 * (y 0).val = win1_2.index t (0 : Fin 2) * 16000 + 1 * (y 0).val; omega), h0]

/-- An index of the array is in point `t`'s output block iff each coordinate is in the block's range on its axis. -/
theorem mem_blk1 (t : Fin cfg1.N) (i : S800000x128.Idx) :
    i ∈ ((cfg1.win 2).blk t).view.set ↔ ∀ a : Fin 2, win1_2.index t a * S16000x128.size a ≤ (i a).val ∧ (i a).val < win1_2.index t a * S16000x128.size a + S16000x128.size a := by
  show i ∈ ((View.whole main_v36).slice (win1_2.rect t)).set ↔ _
  rw [View.set_slice_whole, Rect.mem_set_unit]
  exact Iff.rfl

/-- THE BLOCKS TILE THE ARRAY: row `e` is in the block of point `e / 16000` (`800000 = 50 · 16000`), and every
    block spans all 128 columns. -/
theorem covered1 (i : S800000x128.Idx) :
    ∃ t : Fin cfg1.N, (cfg1.win 2).flush t = true ∧ i ∈ ((cfg1.win 2).blk t).view.set := by
  have hi0 : (i 0).val < 800000 := (i 0).isLt
  have hi1 : (i 1).val < 128 := (i 1).isLt
  have hN : cfg1.N = 50 := N_1
  let t : Fin cfg1.N := ⟨(i 0).val / 16000, by rw [hN]; omega⟩
  obtain ⟨e0, e1, e2, e3, e4, e5⟩ := blockIndex1 t
  have e4' : win1_2.index t (0 : Fin 2) = (i 0).val / 16000 := e4
  refine ⟨t, flush1_2 t, ?_⟩
  rw [mem_blk1]
  intro a
  match a with
  | ⟨0, _⟩ => show win1_2.index t (0 : Fin 2) * 16000 ≤ (i 0).val ∧ (i 0).val < win1_2.index t (0 : Fin 2) * 16000 + 16000; omega
  | ⟨1, _⟩ => show win1_2.index t (1 : Fin 2) * 128 ≤ (i 1).val ∧ (i 1).val < win1_2.index t (1 : Fin 2) * 128 + 128; omega

/-- THE ARRAY AFTER THE RUN: every entry `(e, j)` is `main_v35 (e, j) · main_v28 (e, 0)`. -/
theorem region1_value (c : Dev nD) :
    (dat1 (F := F) V c).arrAt 2 cfg1.N = scaleRows (V c main_v35) (V c main_v28) :=
  (dat1 (F := F) V c).arrAt_eq_of_cover 2 _ (fun t _ => flushed_eq1 V c t) covered1

end Cert.KernelIdeal.Val

end
-- ==== Proof.Region2.lean ====
/-
  Launch 2 of the row-scaling kernel, read as one function of the arrays it finds.

  The grid has 50 points. Point `t` reads rows `16000·t … 16000·t + 15999` of the gathered features
  `main_v46 : [800000, 128]` and the same rows of the weight column `main_v28 : [800000, 1]`, and writes the same
  rows of `main_v47 : [800000, 128]`. Entry `(r, j)` of the block it writes is `x (r, j) · w (r, 0)`: the block's
  weight column broadcast along the 128 features. The 50 blocks of 16000 rows tile the 800000 rows exactly, so after
  the run entry `(e, j)` of `main_v47` is `main_v46 (e, j) · main_v28 (e, 0)`, which is `scaleRows`.

  * `scaledBlock2`, `scaleRows_apply2` : the body's block and `scaleRows`, entry by entry.
  * `blockIndex2` : at point `t` all three windows sit at block row `t`, block column 0.
  * `features2`, `weights2` : an input block's entry is the array's entry at the block's offset plus the entry's own.
  * `flushed_eq2` : what point `t` writes back is block `t` of `scaleRows` of the two arrays.
  * `mem_blk2`, `covered2` : row `e` lies in the block of point `e / 16000`.
  * `region2_value` : the array after the run.
-/
import proofs.«178034_j81200651698780_1_alg».proof.Proof.Gen.KernelIdeal.Frame
import proofs.«178034_j81200651698780_1_alg».proof.Proof.Spec
import Idealize.ShloMosaic.Lib.Pipeline.Value

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

/-- The body reads and writes its blocks whole: from offsets zero on both axes. -/
theorem zeroOff2 : (![0, 0] : Fin 2 → Nat) = fun _ => 0 := funext fun a => by fin_cases a <;> rfl

/-- The entry of a block's weight column that row `y 0` of the block is scaled by: `(y 0, 0)`. -/
def rowOf2 (y : S16000x128.Idx) : S16000x1.Idx := fun a =>
  match a with
  | ⟨0, _⟩ => ⟨(y 0).val, (y 0).isLt⟩
  | ⟨1, _⟩ => ⟨0, Nat.one_pos⟩

/-- THE BLOCK THE BODY WRITES, entry by entry: `x0 (r, j) · x1 (r, 0)`. The column index `k` is any one on row
    `r`; its second coordinate ranges over one value. -/
theorem scaledBlock2 (x0 : Vec F S16000x128 .f32) (x1 : Vec F S16000x1 .f32) (y : S16000x128.Idx) (k : S16000x1.Idx)
    (hk : (k 0).val = (y 0).val) :
    k2_pay1 x0 x1 y = FloatOps.mulf (x0 y) (x1 k) := by
  unfold k2_pay1
  simp only [shapeCast_self]
  show FloatOps.mulf (x0 y) (broadcastTo S16000x128 x1 broadcasts_S16000x1_S16000x128 y) = _
  rw [broadcastTo_apply x1 broadcasts_S16000x1_S16000x128 y k]
  intro a
  match a with
  | ⟨0, _⟩ => exact hk
  | ⟨1, _⟩ => exact Nat.lt_one_iff.mp (k 1).isLt

/-- `scaleRows`, entry by entry: `xg (e, j) · w (e, 0)`, the column index `k` any one on row `e`. -/
theorem scaleRows_apply2 (xg : FVec F S800000x128 .f32) (w : FVec F S800000x1 .f32) (i : S800000x128.Idx) (k : S800000x1.Idx)
    (hk : (k 0).val = (i 0).val) :
    scaleRows xg w i = FloatOps.mulf (xg i) (w k) := by
  unfold scaleRows
  show FloatOps.mulf (xg i) (broadcastInDim S800000x128 ![0, 1] bc_col w i) = _
  rw [broadcastInDim_apply ![0, 1] bc_col w i k]
  intro a
  match a with
  | ⟨0, _⟩ => exact hk
  | ⟨1, _⟩ => exact Nat.lt_one_iff.mp (k 1).isLt

/-- WHERE THE WINDOWS SIT at point `t`: the features' and the weights' blocks at the output's block row, every
    block column 0, and the output's block row is `t` itself. Decided once over the 50 points. -/
theorem blockIndex2 : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = 0
    ∧ win2_2.index t (0 : Fin 2) = t.val
    ∧ win2_2.index t (1 : Fin 2) = 0 :=
  (by decide +kernel : ∀ t : Fin grid2.N, _)

/-- An entry of the features' block at point `t` is the array's entry at the block's place. -/
theorem features2 (c : Dev nD) (t : Fin cfg2.N) (y : S16000x128.Idx) :
    iblk2 V c 0 t y = V c main_v46 (((cfg2.win 0).blk t).view.emb y) := rfl

/-- An entry of the weights' block at point `t` is the column's entry at the block's place. -/
theorem weights2 (c : Dev nD) (t : Fin cfg2.N) (k : S16000x1.Idx) :
    iblk2 V c 1 t k = V c main_v28 (((cfg2.win 1).blk t).view.emb k) := rfl

/-- WHAT POINT `t` WRITES BACK is block `t` of `scaleRows` of the features and the weights as the launch finds
    them. Entry `(r, j)` of the block is row `16000·t + r` of the array on every window: a block's coordinate is
    its block index times the block's extent plus the coordinate inside the block, and the three block rows agree. -/
theorem flushed_eq2 (c : Dev nD) (t : Fin cfg2.N) :
    (dat2 (F := F) V c).flushed 2 t
      = ((cfg2.win 2).blk t).view.read (Elt F) (scaleRows (V c main_v46) (V c main_v28)) := by
  show (cfg2.win 2).cut (grid2.coords t) ((dat2 V c).after 2 t) = _
  rw [after2_2]
  unfold out2_2
  rw [View.canon_unit_zero zeroOff2]
  simp only [View.ld_unit_zero (S := S16000x128) zeroOff2, View.ld_unit_zero (S := S16000x1) zeroOff2]
  obtain ⟨e0, e1, e2, e3, e4, e5⟩ := blockIndex2 t
  funext y
  refine (scaledBlock2 _ _ y (rowOf2 y) rfl).trans ?_
  rw [features2, weights2]
  show _ = scaleRows (V c main_v46) (V c main_v28) (((cfg2.win 2).blk t).view.emb y)
  -- the features' block and the output's block sit over the same rows and columns
  have h0 : ((cfg2.win 0).blk t).view.emb y = ((cfg2.win 2).blk t).view.emb y := by
    funext a; apply Fin.ext
    match a with
    | ⟨0, _⟩ => show win2_0.index t (0 : Fin 2) * 16000 + 1 * (y 0).val = win2_2.index t (0 : Fin 2) * 16000 + 1 * (y 0).val; omega
    | ⟨1, _⟩ => show win2_0.index t (1 : Fin 2) * 128 + 1 * (y 1).val = win2_2.index t (1 : Fin 2) * 128 + 1 * (y 1).val; omega
  -- the weight read is on the output entry's row
  rw [scaleRows_apply2 _ _ _ (((cfg2.win 1).blk t).view.emb (rowOf2 y)) (by
    show win2_1.index t (0 : Fin 2) * 16000 + 1 * (y 0).val = win2_2.index t (0 : Fin 2) * 16000 + 1 * (y 0).val; omega), h0]

/-- An index of the array is in point `t`'s output block iff each coordinate is in the block's range on its axis. -/
theorem mem_blk2 (t : Fin cfg2.N) (i : S800000x128.Idx) :
    i ∈ ((cfg2.win 2).blk t).view.set ↔ ∀ a : Fin 2, win2_2.index t a * S16000x128.size a ≤ (i a).val ∧ (i a).val < win2_2.index t a * S16000x128.size a + S16000x128.size a := by
  show i ∈ ((View.whole main_v47).slice (win2_2.rect t)).set ↔ _
  rw [View.set_slice_whole, Rect.mem_set_unit]
  exact Iff.rfl

/-- THE BLOCKS TILE THE ARRAY: row `e` is in the block of point `e / 16000` (`800000 = 50 · 16000`), and every
    block spans all 128 columns. -/
theorem covered2 (i : S800000x128.Idx) :
    ∃ t : Fin cfg2.N, (cfg2.win 2).flush t = true ∧ i ∈ ((cfg2.win 2).blk t).view.set := by
  have hi0 : (i 0).val < 800000 := (i 0).isLt
  have hi1 : (i 1).val < 128 := (i 1).isLt
  have hN : cfg2.N = 50 := N_2
  let t : Fin cfg2.N := ⟨(i 0).val / 16000, by rw [hN]; omega⟩
  obtain ⟨e0, e1, e2, e3, e4, e5⟩ := blockIndex2 t
  have e4' : win2_2.index t (0 : Fin 2) = (i 0).val / 16000 := e4
  refine ⟨t, flush2_2 t, ?_⟩
  rw [mem_blk2]
  intro a
  match a with
  | ⟨0, _⟩ => show win2_2.index t (0 : Fin 2) * 16000 ≤ (i 0).val ∧ (i 0).val < win2_2.index t (0 : Fin 2) * 16000 + 16000; omega
  | ⟨1, _⟩ => show win2_2.index t (1 : Fin 2) * 128 ≤ (i 1).val ∧ (i 1).val < win2_2.index t (1 : Fin 2) * 128 + 128; omega

/-- THE ARRAY AFTER THE RUN: every entry `(e, j)` is `main_v46 (e, j) · main_v28 (e, 0)`. -/
theorem region2_value (c : Dev nD) :
    (dat2 (F := F) V c).arrAt 2 cfg2.N = scaleRows (V c main_v46) (V c main_v28) :=
  (dat2 (F := F) V c).arrAt_eq_of_cover 2 _ (fun t _ => flushed_eq2 V c t) covered2

end Cert.KernelIdeal.Val

end
-- ==== Proof.Region3.lean ====
/-
  Launch 3 of the row-scaling kernel, read as one function of the arrays it finds.

  The grid has 50 points. Point `t` reads rows `16000·t … 16000·t + 15999` of the gathered features
  `main_v57 : [800000, 128]` and the same rows of the weight column `main_v28 : [800000, 1]`, and writes the same
  rows of `main_v58 : [800000, 128]`. Entry `(r, j)` of the block it writes is `x (r, j) · w (r, 0)`: the block's
  weight column broadcast along the 128 features. The 50 blocks of 16000 rows tile the 800000 rows exactly, so after
  the run entry `(e, j)` of `main_v58` is `main_v57 (e, j) · main_v28 (e, 0)`, which is `scaleRows`.

  * `scaledBlock3`, `scaleRows_apply3` : the body's block and `scaleRows`, entry by entry.
  * `blockIndex3` : at point `t` all three windows sit at block row `t`, block column 0.
  * `features3`, `weights3` : an input block's entry is the array's entry at the block's offset plus the entry's own.
  * `flushed_eq3` : what point `t` writes back is block `t` of `scaleRows` of the two arrays.
  * `mem_blk3`, `covered3` : row `e` lies in the block of point `e / 16000`.
  * `region3_value` : the array after the run.
-/
import proofs.«178034_j81200651698780_1_alg».proof.Proof.Gen.KernelIdeal.Frame
import proofs.«178034_j81200651698780_1_alg».proof.Proof.Spec
import Idealize.ShloMosaic.Lib.Pipeline.Value

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

/-- The body reads and writes its blocks whole: from offsets zero on both axes. -/
theorem zeroOff3 : (![0, 0] : Fin 2 → Nat) = fun _ => 0 := funext fun a => by fin_cases a <;> rfl

/-- The entry of a block's weight column that row `y 0` of the block is scaled by: `(y 0, 0)`. -/
def rowOf3 (y : S16000x128.Idx) : S16000x1.Idx := fun a =>
  match a with
  | ⟨0, _⟩ => ⟨(y 0).val, (y 0).isLt⟩
  | ⟨1, _⟩ => ⟨0, Nat.one_pos⟩

/-- THE BLOCK THE BODY WRITES, entry by entry: `x0 (r, j) · x1 (r, 0)`. The column index `k` is any one on row
    `r`; its second coordinate ranges over one value. -/
theorem scaledBlock3 (x0 : Vec F S16000x128 .f32) (x1 : Vec F S16000x1 .f32) (y : S16000x128.Idx) (k : S16000x1.Idx)
    (hk : (k 0).val = (y 0).val) :
    k3_pay1 x0 x1 y = FloatOps.mulf (x0 y) (x1 k) := by
  unfold k3_pay1
  simp only [shapeCast_self]
  show FloatOps.mulf (x0 y) (broadcastTo S16000x128 x1 broadcasts_S16000x1_S16000x128 y) = _
  rw [broadcastTo_apply x1 broadcasts_S16000x1_S16000x128 y k]
  intro a
  match a with
  | ⟨0, _⟩ => exact hk
  | ⟨1, _⟩ => exact Nat.lt_one_iff.mp (k 1).isLt

/-- `scaleRows`, entry by entry: `xg (e, j) · w (e, 0)`, the column index `k` any one on row `e`. -/
theorem scaleRows_apply3 (xg : FVec F S800000x128 .f32) (w : FVec F S800000x1 .f32) (i : S800000x128.Idx) (k : S800000x1.Idx)
    (hk : (k 0).val = (i 0).val) :
    scaleRows xg w i = FloatOps.mulf (xg i) (w k) := by
  unfold scaleRows
  show FloatOps.mulf (xg i) (broadcastInDim S800000x128 ![0, 1] bc_col w i) = _
  rw [broadcastInDim_apply ![0, 1] bc_col w i k]
  intro a
  match a with
  | ⟨0, _⟩ => exact hk
  | ⟨1, _⟩ => exact Nat.lt_one_iff.mp (k 1).isLt

/-- WHERE THE WINDOWS SIT at point `t`: the features' and the weights' blocks at the output's block row, every
    block column 0, and the output's block row is `t` itself. Decided once over the 50 points. -/
theorem blockIndex3 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = 0
    ∧ win3_2.index t (0 : Fin 2) = t.val
    ∧ win3_2.index t (1 : Fin 2) = 0 :=
  (by decide +kernel : ∀ t : Fin grid3.N, _)

/-- An entry of the features' block at point `t` is the array's entry at the block's place. -/
theorem features3 (c : Dev nD) (t : Fin cfg3.N) (y : S16000x128.Idx) :
    iblk3 V c 0 t y = V c main_v57 (((cfg3.win 0).blk t).view.emb y) := rfl

/-- An entry of the weights' block at point `t` is the column's entry at the block's place. -/
theorem weights3 (c : Dev nD) (t : Fin cfg3.N) (k : S16000x1.Idx) :
    iblk3 V c 1 t k = V c main_v28 (((cfg3.win 1).blk t).view.emb k) := rfl

/-- WHAT POINT `t` WRITES BACK is block `t` of `scaleRows` of the features and the weights as the launch finds
    them. Entry `(r, j)` of the block is row `16000·t + r` of the array on every window: a block's coordinate is
    its block index times the block's extent plus the coordinate inside the block, and the three block rows agree. -/
theorem flushed_eq3 (c : Dev nD) (t : Fin cfg3.N) :
    (dat3 (F := F) V c).flushed 2 t
      = ((cfg3.win 2).blk t).view.read (Elt F) (scaleRows (V c main_v57) (V c main_v28)) := by
  show (cfg3.win 2).cut (grid3.coords t) ((dat3 V c).after 2 t) = _
  rw [after3_2]
  unfold out3_2
  rw [View.canon_unit_zero zeroOff3]
  simp only [View.ld_unit_zero (S := S16000x128) zeroOff3, View.ld_unit_zero (S := S16000x1) zeroOff3]
  obtain ⟨e0, e1, e2, e3, e4, e5⟩ := blockIndex3 t
  funext y
  refine (scaledBlock3 _ _ y (rowOf3 y) rfl).trans ?_
  rw [features3, weights3]
  show _ = scaleRows (V c main_v57) (V c main_v28) (((cfg3.win 2).blk t).view.emb y)
  -- the features' block and the output's block sit over the same rows and columns
  have h0 : ((cfg3.win 0).blk t).view.emb y = ((cfg3.win 2).blk t).view.emb y := by
    funext a; apply Fin.ext
    match a with
    | ⟨0, _⟩ => show win3_0.index t (0 : Fin 2) * 16000 + 1 * (y 0).val = win3_2.index t (0 : Fin 2) * 16000 + 1 * (y 0).val; omega
    | ⟨1, _⟩ => show win3_0.index t (1 : Fin 2) * 128 + 1 * (y 1).val = win3_2.index t (1 : Fin 2) * 128 + 1 * (y 1).val; omega
  -- the weight read is on the output entry's row
  rw [scaleRows_apply3 _ _ _ (((cfg3.win 1).blk t).view.emb (rowOf3 y)) (by
    show win3_1.index t (0 : Fin 2) * 16000 + 1 * (y 0).val = win3_2.index t (0 : Fin 2) * 16000 + 1 * (y 0).val; omega), h0]

/-- An index of the array is in point `t`'s output block iff each coordinate is in the block's range on its axis. -/
theorem mem_blk3 (t : Fin cfg3.N) (i : S800000x128.Idx) :
    i ∈ ((cfg3.win 2).blk t).view.set ↔ ∀ a : Fin 2, win3_2.index t a * S16000x128.size a ≤ (i a).val ∧ (i a).val < win3_2.index t a * S16000x128.size a + S16000x128.size a := by
  show i ∈ ((View.whole main_v58).slice (win3_2.rect t)).set ↔ _
  rw [View.set_slice_whole, Rect.mem_set_unit]
  exact Iff.rfl

/-- THE BLOCKS TILE THE ARRAY: row `e` is in the block of point `e / 16000` (`800000 = 50 · 16000`), and every
    block spans all 128 columns. -/
theorem covered3 (i : S800000x128.Idx) :
    ∃ t : Fin cfg3.N, (cfg3.win 2).flush t = true ∧ i ∈ ((cfg3.win 2).blk t).view.set := by
  have hi0 : (i 0).val < 800000 := (i 0).isLt
  have hi1 : (i 1).val < 128 := (i 1).isLt
  have hN : cfg3.N = 50 := N_3
  let t : Fin cfg3.N := ⟨(i 0).val / 16000, by rw [hN]; omega⟩
  obtain ⟨e0, e1, e2, e3, e4, e5⟩ := blockIndex3 t
  have e4' : win3_2.index t (0 : Fin 2) = (i 0).val / 16000 := e4
  refine ⟨t, flush3_2 t, ?_⟩
  rw [mem_blk3]
  intro a
  match a with
  | ⟨0, _⟩ => show win3_2.index t (0 : Fin 2) * 16000 ≤ (i 0).val ∧ (i 0).val < win3_2.index t (0 : Fin 2) * 16000 + 16000; omega
  | ⟨1, _⟩ => show win3_2.index t (1 : Fin 2) * 128 ≤ (i 1).val ∧ (i 1).val < win3_2.index t (1 : Fin 2) * 128 + 128; omega

/-- THE ARRAY AFTER THE RUN: every entry `(e, j)` is `main_v57 (e, j) · main_v28 (e, 0)`. -/
theorem region3_value (c : Dev nD) :
    (dat3 (F := F) V c).arrAt 2 cfg3.N = scaleRows (V c main_v57) (V c main_v28) :=
  (dat3 (F := F) V c).arrAt_eq_of_cover 2 _ (fun t _ => flushed_eq3 V c t) covered3

end Cert.KernelIdeal.Val

end
-- ==== Proof.Region4.lean ====
/-
  Region 4, the assembly of the node features: after the run the array of 50000 × 640 entries holds, on every node
  `n`, five blocks of 128 columns side by side:

    column `j` of node `n`  =  `x (n, j)`        for `j < 128`,
                             `x₁ (n, j - 128)`  for `128 ≤ j < 256`,
                             `x₂ (n, j - 256)`  for `256 ≤ j < 384`,
                             `x₃ (n, j - 384)`  for `384 ≤ j < 512`,
                             `μ (0, j - 512)`   for `512 ≤ j < 640`,

  where `x, x₁, x₂, x₃` are the four arrays of 50000 × 128 node features and `μ` is the one row of 128 entries,
  all as the region finds them. That is `assemble x x₁ x₂ x₃ μ`.

  The grid has 25 points. At point `t` the four feature windows hold rows `2000·t … 2000·t + 1999` of their arrays
  (block `(t, 0)` of 2000 × 128), the mean row's window holds the whole row (block `(0, 0)` at every point), and the
  output window's block `(t, 0)` of 2000 × 640 is rows `2000·t … 2000·t + 1999` of the result. The body writes five
  column ranges of the output block: columns `[128·k, 128·k + 128)` for `k = 0 … 3` receive feature block `k`
  unchanged, and columns `[512, 640)` receive the mean row repeated on each of the 2000 rows.

  The proof, in order:
  * `assemble_piece0 … assemble_piece4`: `assemble` read at an index whose column falls in block `k` is the `k`-th
    operand at the same row and the column less `128·k` (the fifth: the row `μ` at row 0 and that column);
  * `pay1_eq … pay4_apply`, `out4_5_eq_of`: what the body leaves in the output block is any function `G` of the
    block index that agrees with each of the five stored pieces on that piece's column range;
  * `idx_facts4`: the block indices of the six windows at every one of the 25 points;
  * `flushed4_eq`: so what point `t` writes back is block `t` of `assemble …`: entry `(r, 128·k + j)` of the block is
    entry `(2000·t + r, j)` of feature array `k`, read from that array's block `t` at `(r, j)`, and entry
    `(r, 512 + j)` is `μ (0, j)`;
  * `mem_blk4`, `cover4`: row `n` of the result lies in the block of point `n / 2000`, every column in its one column
    block, so the 25 blocks cover the array;
  * `region4_value`: hence the array after the run is `assemble …`.
-/
import proofs.«178034_j81200651698780_1_alg».proof.Proof.Gen.KernelIdeal.Frame
import proofs.«178034_j81200651698780_1_alg».proof.Proof.Spec
import Idealize.ShloMosaic.Lib.Pipeline.Value

set_option maxRecDepth 16384

noncomputable section

namespace Cert.KernelIdeal.Val

open Idealize.ShloMosaic Idealize.ShloMosaic.TcCoe Idealize.SL.Sem
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

/-- The zero offsets of a whole-block access, as the constant function. -/
theorem hz4 : (![0, 0] : Fin 2 → Nat) = fun _ => 0 := funext fun a => match a with | ⟨0, _⟩ => rfl | ⟨1, _⟩ => rfl

/-! ## `assemble` read at an index, column block by column block -/

section Assemble
variable (A0 A1 A2 A3 : FVec F S50000x128 .f32) (M : FVec F S1x128 .f32)

/-- A column in `[0, 128)` reads the first feature array at the same row and the column less 0. -/
theorem assemble_piece0 (i : S50000x640.Idx) (k : S50000x128.Idx)
    (h0 : (k 0).val = (i 0).val) (h1 : 0 + (k 1).val = (i 1).val) : assemble A0 A1 A2 A3 M i = A0 k := by
  unfold assemble
  refine concatenate_apply_piece (1 : Fin S50000x640.rank) _ _ i 0 ?_ S50000x128 A0 ?_ rfl 0 ?_ k ?_ h1
  · show 0 < 5; omega
  · rfl
  · rfl
  · intro b hb
    match b with
    | ⟨0, _⟩ => exact h0
    | ⟨1, _⟩ => exact absurd rfl hb

/-- A column in `[128, 256)` reads the second feature array at the same row and the column less 128. -/
theorem assemble_piece1 (i : S50000x640.Idx) (k : S50000x128.Idx)
    (h0 : (k 0).val = (i 0).val) (h1 : 128 + (k 1).val = (i 1).val) : assemble A0 A1 A2 A3 M i = A1 k := by
  unfold assemble
  refine concatenate_apply_piece (1 : Fin S50000x640.rank) _ _ i 1 ?_ S50000x128 A1 ?_ rfl 128 ?_ k ?_ h1
  · show 1 < 5; omega
  · rfl
  · rfl
  · intro b hb
    match b with
    | ⟨0, _⟩ => exact h0
    | ⟨1, _⟩ => exact absurd rfl hb

/-- A column in `[256, 384)` reads the third feature array at the same row and the column less 256. -/
theorem assemble_piece2 (i : S50000x640.Idx) (k : S50000x128.Idx)
    (h0 : (k 0).val = (i 0).val) (h1 : 256 + (k 1).val = (i 1).val) : assemble A0 A1 A2 A3 M i = A2 k := by
  unfold assemble
  refine concatenate_apply_piece (1 : Fin S50000x640.rank) _ _ i 2 ?_ S50000x128 A2 ?_ rfl 256 ?_ k ?_ h1
  · show 2 < 5; omega
  · rfl
  · rfl
  · intro b hb
    match b with
    | ⟨0, _⟩ => exact h0
    | ⟨1, _⟩ => exact absurd rfl hb

/-- A column in `[384, 512)` reads the fourth feature array at the same row and the column less 384. -/
theorem assemble_piece3 (i : S50000x640.Idx) (k : S50000x128.Idx)
    (h0 : (k 0).val = (i 0).val) (h1 : 384 + (k 1).val = (i 1).val) : assemble A0 A1 A2 A3 M i = A3 k := by
  unfold assemble
  refine concatenate_apply_piece (1 : Fin S50000x640.rank) _ _ i 3 ?_ S50000x128 A3 ?_ rfl 384 ?_ k ?_ h1
  · show 3 < 5; omega
  · rfl
  · rfl
  · intro b hb
    match b with
    | ⟨0, _⟩ => exact h0
    | ⟨1, _⟩ => exact absurd rfl hb

/-- A column in `[512, 640)` reads the one row `M` at row 0 and the column less 512, whatever the node. -/
theorem assemble_piece4 (i : S50000x640.Idx) (k : S50000x128.Idx) (k' : S1x128.Idx)
    (h0 : (k 0).val = (i 0).val) (h1 : 512 + (k 1).val = (i 1).val)
    (g0 : (k' 0).val = 0) (g1 : (k' 1).val = (k 1).val) : assemble A0 A1 A2 A3 M i = M k' := by
  unfold assemble
  refine (concatenate_apply_piece (1 : Fin S50000x640.rank) _ _ i 4 ?_ S50000x128 (broadcastInDim S50000x128 ![0, 1] bc_row M) ?_ rfl 512 ?_ k ?_ h1).trans ?_
  · show 4 < 5; omega
  · rfl
  · rfl
  · intro b hb
    match b with
    | ⟨0, _⟩ => exact h0
    | ⟨1, _⟩ => exact absurd rfl hb
  · refine broadcastInDim_apply _ _ M k k' ?_
    intro a
    match a with
    | ⟨0, _⟩ => exact g0
    | ⟨1, _⟩ => exact g1

end Assemble

/-! ## What the body leaves in the output block -/

/-- The index `(0, j)` of the one row, under column `j` of a block index `(r, j)`. -/
def rowIdx (x : S2000x128.Idx) : S1x128.Idx := fun a =>
  match a with
  | ⟨0, _⟩ => ⟨0, Nat.zero_lt_one⟩
  | ⟨1, _⟩ => ⟨(x 1).val, (x 1).isLt⟩

/-- The second feature block is stored unchanged (a cast to its own shape). -/
theorem pay1_eq (v : Vec F S2000x128 .f32) : k4_pay1 v = v := by
  unfold k4_pay1; exact shapeCast_self _ _
/-- The third feature block is stored unchanged. -/
theorem pay2_eq (v : Vec F S2000x128 .f32) : k4_pay2 v = v := by
  unfold k4_pay2; exact shapeCast_self _ _
/-- The fourth feature block is stored unchanged. -/
theorem pay3_eq (v : Vec F S2000x128 .f32) : k4_pay3 v = v := by
  unfold k4_pay3; exact shapeCast_self _ _
/-- The fifth piece is the one row repeated on every row of the block: entry `(r, j)` is `v (0, j)`. -/
theorem pay4_apply (v : Vec F S1x128 .f32) (x : S2000x128.Idx) : k4_pay4 v x = v (rowIdx x) := by
  unfold k4_pay4
  simp only [shapeCast_self]
  refine broadcastTo_apply _ _ x (rowIdx x) ?_
  intro a
  match a with
  | ⟨0, _⟩ => rfl
  | ⟨1, _⟩ => rfl

/-- The output block after the body is any `G` that agrees with the five stored pieces, each on its column range:
    columns `[0,128)`, `[128,256)`, `[256,384)`, `[384,512)` with the four feature blocks, columns `[512,640)` with the
    one row repeated. The five column ranges tile the 640 columns, so every entry of the block is decided. -/
theorem out4_5_eq_of (x0 x1 x2 x3 : Vec F S2000x128 .f32) (x4 : Vec F S1x128 .f32) (G : Vec F S2000x640 .f32)
    (h0 : ∀ x : S2000x128.Idx, x0 x = G (r4_1.emb x))
    (h1 : ∀ x : S2000x128.Idx, x1 x = G (r4_2.emb x))
    (h2 : ∀ x : S2000x128.Idx, x2 x = G (r4_3.emb x))
    (h3 : ∀ x : S2000x128.Idx, x3 x = G (r4_4.emb x))
    (h4 : ∀ x : S2000x128.Idx, x4 (rowIdx x) = G (r4_6.emb x)) :
    out4_5 x0 x1 x2 x3 x4 = G := by
  funext y
  unfold out4_5
  refine View.canon_apply_of_pieces G _ ?_ y (cover4_5 _ _ _ _ _ y)
  intro p hp x
  simp only [List.mem_cons, List.mem_nil_iff, or_false] at hp
  rcases hp with rfl | rfl | rfl | rfl | rfl
  · show k4_pay4 (View.ld x4 r4_5) x = G (r4_6.emb x)
    rw [pay4_apply, View.ld_unit_zero (S := S1x128) hz4]
    exact h4 x
  · show k4_pay3 (View.ld x3 r4_0) x = G (r4_4.emb x)
    rw [pay3_eq, View.ld_unit_zero (S := S2000x128) hz4]
    exact h3 x
  · show k4_pay2 (View.ld x2 r4_0) x = G (r4_3.emb x)
    rw [pay2_eq, View.ld_unit_zero (S := S2000x128) hz4]
    exact h2 x
  · show k4_pay1 (View.ld x1 r4_0) x = G (r4_2.emb x)
    rw [pay1_eq, View.ld_unit_zero (S := S2000x128) hz4]
    exact h1 x
  · show View.ld x0 r4_0 x = G (r4_1.emb x)
    rw [View.ld_unit_zero (S := S2000x128) hz4]
    exact h0 x

/-! ## The write-back at a point, and the whole array -/

/-- The block indices, decided once over the 25 grid points: the output window and the four feature windows sit at
    block `(t, 0)`, the one row's window at block `(0, 0)`. -/
theorem idx_facts4 : ∀ t : Fin cfg4.N,
    win4_5.index t (0 : Fin 2) = t.val ∧ win4_5.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0 :=
  (by decide +kernel : ∀ t : Fin grid4.N, _)

/-- WHAT POINT `t` WRITES BACK is block `t` of `assemble …` of the arrays as the region finds them. Entry
    `(r, 128·k + j)` of the output block sits at `(2000·t + r, 128·k + j)` of the result, which is feature array `k` at
    `(2000·t + r, j)`: entry `(r, j)` of that array's block `t`. Entry `(r, 512 + j)` is the one row at `(0, j)`. -/
theorem flushed4_eq (c : Dev nD) (t : Fin cfg4.N) :
    (dat4 (F := F) V c).flushed 5 t = ((cfg4.win 5).blk t).view.read (Elt F)
      (assemble (V c main_arg0) (V c main_v39) (V c main_v50) (V c main_v61) (V c main_v65)) := by
  show (cfg4.win 5).cut (grid4.coords t) ((dat4 V c).after 5 t) = _
  rw [after4_5]
  obtain ⟨e50, e51, e00, e01, e10, e11, e20, e21, e30, e31, e40, e41⟩ := idx_facts4 t
  refine out4_5_eq_of (iblk4 V c 0 t) (iblk4 V c 1 t) (iblk4 V c 2 t) (iblk4 V c 3 t) (iblk4 V c 4 t) _
    (fun x => ?_) (fun x => ?_) (fun x => ?_) (fun x => ?_) (fun x => ?_)
  · -- columns [0, 128): the first feature array, rows 2000·t + r
    show V c main_arg0 (((cfg4.win 0).blk t).view.emb x) = assemble (V c main_arg0) (V c main_v39) (V c main_v50) (V c main_v61) (V c main_v65) (((cfg4.win 5).blk t).view.emb (r4_1.emb x))
    refine (assemble_piece0 _ _ _ _ _ _ _ ?_ ?_).symm
    · show win4_0.index t (0 : Fin 2) * 2000 + 1 * (x 0).val = win4_5.index t (0 : Fin 2) * 2000 + 1 * (0 + 1 * (x 0).val)
      omega
    · show 0 + (win4_0.index t (1 : Fin 2) * 128 + 1 * (x 1).val) = win4_5.index t (1 : Fin 2) * 640 + 1 * (0 + 1 * (x 1).val)
      omega
  · -- columns [128, 256): the second feature array
    show V c main_v39 (((cfg4.win 1).blk t).view.emb x) = assemble (V c main_arg0) (V c main_v39) (V c main_v50) (V c main_v61) (V c main_v65) (((cfg4.win 5).blk t).view.emb (r4_2.emb x))
    refine (assemble_piece1 _ _ _ _ _ _ _ ?_ ?_).symm
    · show win4_1.index t (0 : Fin 2) * 2000 + 1 * (x 0).val = win4_5.index t (0 : Fin 2) * 2000 + 1 * (0 + 1 * (x 0).val)
      omega
    · show 128 + (win4_1.index t (1 : Fin 2) * 128 + 1 * (x 1).val) = win4_5.index t (1 : Fin 2) * 640 + 1 * (128 + 1 * (x 1).val)
      omega
  · -- columns [256, 384): the third feature array
    show V c main_v50 (((cfg4.win 2).blk t).view.emb x) = assemble (V c main_arg0) (V c main_v39) (V c main_v50) (V c main_v61) (V c main_v65) (((cfg4.win 5).blk t).view.emb (r4_3.emb x))
    refine (assemble_piece2 _ _ _ _ _ _ _ ?_ ?_).symm
    · show win4_2.index t (0 : Fin 2) * 2000 + 1 * (x 0).val = win4_5.index t (0 : Fin 2) * 2000 + 1 * (0 + 1 * (x 0).val)
      omega
    · show 256 + (win4_2.index t (1 : Fin 2) * 128 + 1 * (x 1).val) = win4_5.index t (1 : Fin 2) * 640 + 1 * (256 + 1 * (x 1).val)
      omega
  · -- columns [384, 512): the fourth feature array
    show V c main_v61 (((cfg4.win 3).blk t).view.emb x) = assemble (V c main_arg0) (V c main_v39) (V c main_v50) (V c main_v61) (V c main_v65) (((cfg4.win 5).blk t).view.emb (r4_4.emb x))
    refine (assemble_piece3 _ _ _ _ _ _ _ ?_ ?_).symm
    · show win4_3.index t (0 : Fin 2) * 2000 + 1 * (x 0).val = win4_5.index t (0 : Fin 2) * 2000 + 1 * (0 + 1 * (x 0).val)
      omega
    · show 384 + (win4_3.index t (1 : Fin 2) * 128 + 1 * (x 1).val) = win4_5.index t (1 : Fin 2) * 640 + 1 * (384 + 1 * (x 1).val)
      omega
  · -- columns [512, 640): the one row, at row 0 and the same column, on every row of the block
    show V c main_v65 (((cfg4.win 4).blk t).view.emb (rowIdx x)) = assemble (V c main_arg0) (V c main_v39) (V c main_v50) (V c main_v61) (V c main_v65) (((cfg4.win 5).blk t).view.emb (r4_6.emb x))
    refine (assemble_piece4 _ _ _ _ _ _ (((cfg4.win 0).blk t).view.emb x) _ ?_ ?_ ?_ ?_).symm
    · show win4_0.index t (0 : Fin 2) * 2000 + 1 * (x 0).val = win4_5.index t (0 : Fin 2) * 2000 + 1 * (0 + 1 * (x 0).val)
      omega
    · show 512 + (win4_0.index t (1 : Fin 2) * 128 + 1 * (x 1).val) = win4_5.index t (1 : Fin 2) * 640 + 1 * (512 + 1 * (x 1).val)
      omega
    · show win4_4.index t (0 : Fin 2) * 1 + 1 * 0 = 0
      omega
    · show win4_4.index t (1 : Fin 2) * 128 + 1 * (x 1).val = win4_0.index t (1 : Fin 2) * 128 + 1 * (x 1).val
      omega

/-- An index of the result is in point `t`'s block iff each coordinate is in the block's range on its axis. -/
theorem mem_blk4 (t : Fin cfg4.N) (i : S50000x640.Idx) :
    i ∈ ((cfg4.win 5).blk t).view.set ↔ ∀ a : Fin 2, win4_5.index t a * S2000x640.size a ≤ (i a).val ∧ (i a).val < win4_5.index t a * S2000x640.size a + S2000x640.size a := by
  show i ∈ ((View.whole main_v66).slice (win4_5.rect t)).set ↔ _
  rw [View.set_slice_whole, Rect.mem_set_unit]
  exact Iff.rfl

/-- The 25 blocks cover the result: row `n` lies in the block of point `n / 2000` (`50000 = 25 · 2000`), and each block
    spans all 640 columns. -/
theorem cover4 (i : S50000x640.Idx) :
    ∃ t : Fin cfg4.N, (cfg4.win 5).flush t = true ∧ i ∈ ((cfg4.win 5).blk t).view.set := by
  have hi0 : (i 0).val < 50000 := (i 0).isLt
  have hi1 : (i 1).val < 640 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨e50, e51, -⟩ := idx_facts4 t
  refine ⟨t, flush4_5 t, ?_⟩
  rw [mem_blk4]
  intro a
  match a with
  | ⟨0, _⟩ =>
    show win4_5.index t (0 : Fin 2) * 2000 ≤ (i 0).val ∧ (i 0).val < win4_5.index t (0 : Fin 2) * 2000 + 2000
    omega
  | ⟨1, _⟩ =>
    show win4_5.index t (1 : Fin 2) * 640 ≤ (i 1).val ∧ (i 1).val < win4_5.index t (1 : Fin 2) * 640 + 640
    omega

/-- THE ARRAY after the run: the five blocks of 128 columns side by side, the last one the one row on every node. -/
theorem region4_value (c : Dev nD) :
    (dat4 (F := F) V c).arrAt 5 cfg4.N = assemble (V c main_arg0) (V c main_v39) (V c main_v50) (V c main_v61) (V c main_v65) :=
  (dat4 (F := F) V c).arrAt_eq_of_cover 5 _ (fun t _ => flushed4_eq V c t) cover4

end Cert.KernelIdeal.Val

end
-- ==== Proof.KernelValue.lean ====
/-
  The kernel program's result as a function of its three arguments.

  The program alternates stretches of host operations with five pipelined regions. At every boundary between two
  segments the buffers that a later segment still reads are, each, one STAGE of the plain computation over the
  arguments `x` (node features), `e` (the two rows of edge endpoints) and `u` (raw edge weights):
    * the source and target ids; the inverse root degrees `dinv`; the weight column
      `w (k, 0) = (dinv (src k) · u k) · dinv (dst k)`, which the first region computes from three reshaped columns
      and which is the column of the product of the three vectors (`edgeWeight_reshape`);
    * per hop, the gathered rows, the rows scaled by `w` (a region), and their sum per target node;
    * the mean row of `x`;
    * the result: `x`, the three hops and the repeated mean row side by side (the last region).
  The stages are the ones the reference program's own operations name (its read-back module states each as a
  function of the arguments, at any float instance), so each lemma below says "this buffer at this boundary IS that
  stage", by running the stretch's operations on the previous boundary's facts, or by the region's whole-array value.
-/
import proofs.«178034_j81200651698780_1_alg».proof.Proof.Gen.KernelIdeal.Frame
import proofs.«178034_j81200651698780_1_alg».proof.Proof.Gen.ReferenceIdeal.Read
import proofs.«178034_j81200651698780_1_alg».proof.Proof.Spec
import proofs.«178034_j81200651698780_1_alg».proof.Proof.WeightColumn
import proofs.«178034_j81200651698780_1_alg».proof.Proof.Region0
import proofs.«178034_j81200651698780_1_alg».proof.Proof.Region1
import proofs.«178034_j81200651698780_1_alg».proof.Proof.Region2
import proofs.«178034_j81200651698780_1_alg».proof.Proof.Region3
import proofs.«178034_j81200651698780_1_alg».proof.Proof.Region4
import Idealize.ShloMosaic.Lib.StableHlo.Run

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]
variable (m : (ℓ : Loc nD τ sig) → Buf (Elt F) ℓ) (ρ : Dev nD → PrngReg) (c : Dev nD)

/-- The node features as launched. -/
abbrev argX : (⟨S50000x128, .f32⟩ : BufTy).Contents (Elt F) := m ((c : Thread nD τ).loc main_arg0)
/-- The edge endpoints as launched. -/
abbrev argE : (⟨S2x800000, .i32⟩ : BufTy).Contents (Elt F) := m ((c : Thread nD τ).loc main_arg1)
/-- The raw edge weights as launched. -/
abbrev argU : (⟨S800000, .f32⟩ : BufTy).Contents (Elt F) := m ((c : Thread nD τ).loc main_arg2)

/-! ## Before the first region: ids, inverse root degrees, the three columns

Thirty-seven host operations from the launch memory: the two id vectors, the degree sum, its inverse root under the
positivity test, the two gathers of it, and the three reshapes to columns. -/

theorem W3_arg0 : W3 m ρ c (Proc.devRef .tc main_arg0) = argX m c := by
  dsimp only [W3, W2, W1, hostOps0, hostOps0_1, hostOps0_2]
  after_results_simp <;> rfl

theorem W3_v1 : W3 m ρ c (Proc.devRef .tc main_v1) = val_main_v1 (argE m c) := by
  dsimp only [W3, W2, W1, hostOps0, hostOps0_1, hostOps0_2]
  after_results_simp <;> rfl

theorem W3_v3 : W3 m ρ c (Proc.devRef .tc main_v3) = val_main_v3 (argE m c) := by
  dsimp only [W3, W2, W1, hostOps0, hostOps0_1, hostOps0_2]
  after_results_simp <;> rfl

/-- The inverse root degree at each edge's source, as a column. -/
theorem W3_v18 : W3 m ρ c (Proc.devRef .tc main_v18)
    = shapeCast S800000x1 (val_main_v17 (argE m c) (argU m c)) shapeCasts_S800000_S800000x1 := by
  dsimp only [W3, W2, W1, hostOps0, hostOps0_1, hostOps0_2]
  after_results_simp <;> rfl

/-- The inverse root degree at each edge's target, as a column. -/
theorem W3_v26 : W3 m ρ c (Proc.devRef .tc main_v26)
    = shapeCast S800000x1 (val_main_v25 (argE m c) (argU m c)) shapeCasts_S800000_S800000x1 := by
  dsimp only [W3, W2, W1, hostOps0, hostOps0_1, hostOps0_2]
  after_results_simp <;> rfl

/-- The raw edge weights, as a column. -/
theorem W3_v27 : W3 m ρ c (Proc.devRef .tc main_v27)
    = shapeCast S800000x1 (argU m c) shapeCasts_S800000_S800000x1 := by
  dsimp only [W3, W2, W1, hostOps0, hostOps0_1, hostOps0_2]
  after_results_simp <;> rfl

/-! ## The first region: the weight column -/

/-- After the first region the weight column is the reference's: the product of the three columns is the column of
    the product of the three vectors. -/
theorem W4_v28 : W4 m ρ c (Proc.devRef .tc main_v28) = val_main_v34 (argE m c) (argU m c) :=
  (W4_arr m ρ c 3).trans ((region0_value (V3 m ρ) c).trans (by
    show edgeWeight (W3 m ρ c (Proc.devRef .tc main_v18)) (W3 m ρ c (Proc.devRef .tc main_v27))
      (W3 m ρ c (Proc.devRef .tc main_v26)) = _
    rw [W3_v18, W3_v27, W3_v26,
      edgeWeight_reshape _ _ _ shapeCasts_S800000_S800000x1 Cert.ReferenceIdeal.Gen.bcast_S800000_S800000x1_0]
    rfl))

theorem W4_arg0 : W4 m ρ c (Proc.devRef .tc main_arg0) = argX m c :=
  (W4_of_ne m ρ c main_arg0 (by decide)).trans (W3_arg0 m ρ c)
theorem W4_v1 : W4 m ρ c (Proc.devRef .tc main_v1) = val_main_v1 (argE m c) :=
  (W4_of_ne m ρ c main_v1 (by decide)).trans (W3_v1 m ρ c)
theorem W4_v3 : W4 m ρ c (Proc.devRef .tc main_v3) = val_main_v3 (argE m c) :=
  (W4_of_ne m ρ c main_v3 (by decide)).trans (W3_v3 m ρ c)

/-! ## First hop: gather, scale (a region), sum per target -/

theorem W5_arg0 : W5 m ρ c (Proc.devRef .tc main_arg0) = argX m c := by
  dsimp only [W5, hostOps1]; after_results_simp; exact W4_arg0 m ρ c
theorem W5_v1 : W5 m ρ c (Proc.devRef .tc main_v1) = val_main_v1 (argE m c) := by
  dsimp only [W5, hostOps1]; after_results_simp; exact W4_v1 m ρ c
theorem W5_v3 : W5 m ρ c (Proc.devRef .tc main_v3) = val_main_v3 (argE m c) := by
  dsimp only [W5, hostOps1]; after_results_simp; exact W4_v3 m ρ c
theorem W5_v28 : W5 m ρ c (Proc.devRef .tc main_v28) = val_main_v34 (argE m c) (argU m c) := by
  dsimp only [W5, hostOps1]; after_results_simp; exact W4_v28 m ρ c
/-- The feature rows at the edges' sources. -/
theorem W5_v35 : W5 m ρ c (Proc.devRef .tc main_v35) = val_main_v33 (argX m c) (argE m c) := by
  dsimp only [W5, hostOps1]; after_results_simp
  rw [W4_arg0, W4_v1]; rfl

/-- The gathered rows scaled by the weight column. -/
theorem W6_v36 : W6 m ρ c (Proc.devRef .tc main_v36) = val_main_v36 (argX m c) (argE m c) (argU m c) :=
  (W6_arr m ρ c 2).trans ((region1_value (V5 m ρ) c).trans (by
    show scaleRows (W5 m ρ c (Proc.devRef .tc main_v35)) (W5 m ρ c (Proc.devRef .tc main_v28)) = _
    rw [W5_v35, W5_v28]; rfl))
theorem W6_arg0 : W6 m ρ c (Proc.devRef .tc main_arg0) = argX m c :=
  (W6_of_ne m ρ c main_arg0 (by decide)).trans (W5_arg0 m ρ c)
theorem W6_v1 : W6 m ρ c (Proc.devRef .tc main_v1) = val_main_v1 (argE m c) :=
  (W6_of_ne m ρ c main_v1 (by decide)).trans (W5_v1 m ρ c)
theorem W6_v3 : W6 m ρ c (Proc.devRef .tc main_v3) = val_main_v3 (argE m c) :=
  (W6_of_ne m ρ c main_v3 (by decide)).trans (W5_v3 m ρ c)
/-- The weight column is an input of this region: a region leaves its input arrays as it found them. -/
theorem W6_v28 : W6 m ρ c (Proc.devRef .tc main_v28) = val_main_v34 (argE m c) (argU m c) :=
  ((W6_arr m ρ c 1).trans (((dat1 (V5 m ρ) c).arrAt_in 1 rfl _).trans (A_eq1 (V5 m ρ) c 1))).trans (W5_v28 m ρ c)

/-! ## Second hop -/

theorem W7_arg0 : W7 m ρ c (Proc.devRef .tc main_arg0) = argX m c := by
  dsimp only [W7, hostOps2]; after_results_simp; exact W6_arg0 m ρ c
theorem W7_v1 : W7 m ρ c (Proc.devRef .tc main_v1) = val_main_v1 (argE m c) := by
  dsimp only [W7, hostOps2]; after_results_simp; exact W6_v1 m ρ c
theorem W7_v3 : W7 m ρ c (Proc.devRef .tc main_v3) = val_main_v3 (argE m c) := by
  dsimp only [W7, hostOps2]; after_results_simp; exact W6_v3 m ρ c
theorem W7_v28 : W7 m ρ c (Proc.devRef .tc main_v28) = val_main_v34 (argE m c) (argU m c) := by
  dsimp only [W7, hostOps2]; after_results_simp; exact W6_v28 m ρ c
/-- The first hop: the scaled rows summed per target node. -/
theorem W7_v39 : W7 m ρ c (Proc.devRef .tc main_v39) = val_main_v39 (argX m c) (argE m c) (argU m c) := by
  dsimp only [W7, hostOps2]; after_results_simp
  rw [W6_v3, W6_v36]; rfl
/-- The first hop's rows at the edges' sources. -/
theorem W7_v46 : W7 m ρ c (Proc.devRef .tc main_v46) = val_main_v46 (argX m c) (argE m c) (argU m c) := by
  dsimp only [W7, hostOps2]; after_results_simp
  rw [W6_v3, W6_v36, W6_v1]; rfl

theorem W8_v47 : W8 m ρ c (Proc.devRef .tc main_v47) = val_main_v49 (argX m c) (argE m c) (argU m c) :=
  (W8_arr m ρ c 2).trans ((region2_value (V7 m ρ) c).trans (by
    show scaleRows (W7 m ρ c (Proc.devRef .tc main_v46)) (W7 m ρ c (Proc.devRef .tc main_v28)) = _
    rw [W7_v46, W7_v28]; rfl))
theorem W8_arg0 : W8 m ρ c (Proc.devRef .tc main_arg0) = argX m c :=
  (W8_of_ne m ρ c main_arg0 (by decide)).trans (W7_arg0 m ρ c)
theorem W8_v1 : W8 m ρ c (Proc.devRef .tc main_v1) = val_main_v1 (argE m c) :=
  (W8_of_ne m ρ c main_v1 (by decide)).trans (W7_v1 m ρ c)
theorem W8_v3 : W8 m ρ c (Proc.devRef .tc main_v3) = val_main_v3 (argE m c) :=
  (W8_of_ne m ρ c main_v3 (by decide)).trans (W7_v3 m ρ c)
theorem W8_v28 : W8 m ρ c (Proc.devRef .tc main_v28) = val_main_v34 (argE m c) (argU m c) :=
  ((W8_arr m ρ c 1).trans (((dat2 (V7 m ρ) c).arrAt_in 1 rfl _).trans (A_eq2 (V7 m ρ) c 1))).trans (W7_v28 m ρ c)
theorem W8_v39 : W8 m ρ c (Proc.devRef .tc main_v39) = val_main_v39 (argX m c) (argE m c) (argU m c) :=
  (W8_of_ne m ρ c main_v39 (by decide)).trans (W7_v39 m ρ c)

/-! ## Third hop -/

theorem W9_arg0 : W9 m ρ c (Proc.devRef .tc main_arg0) = argX m c := by
  dsimp only [W9, hostOps3]; after_results_simp; exact W8_arg0 m ρ c
theorem W9_v1 : W9 m ρ c (Proc.devRef .tc main_v1) = val_main_v1 (argE m c) := by
  dsimp only [W9, hostOps3]; after_results_simp; exact W8_v1 m ρ c
theorem W9_v3 : W9 m ρ c (Proc.devRef .tc main_v3) = val_main_v3 (argE m c) := by
  dsimp only [W9, hostOps3]; after_results_simp; exact W8_v3 m ρ c
theorem W9_v28 : W9 m ρ c (Proc.devRef .tc main_v28) = val_main_v34 (argE m c) (argU m c) := by
  dsimp only [W9, hostOps3]; after_results_simp; exact W8_v28 m ρ c
theorem W9_v39 : W9 m ρ c (Proc.devRef .tc main_v39) = val_main_v39 (argX m c) (argE m c) (argU m c) := by
  dsimp only [W9, hostOps3]; after_results_simp; exact W8_v39 m ρ c
/-- The second hop. -/
theorem W9_v50 : W9 m ρ c (Proc.devRef .tc main_v50) = val_main_v52 (argX m c) (argE m c) (argU m c) := by
  dsimp only [W9, hostOps3]; after_results_simp
  rw [W8_v3, W8_v47]; rfl
/-- The second hop's rows at the edges' sources. -/
theorem W9_v57 : W9 m ρ c (Proc.devRef .tc main_v57) = val_main_v59 (argX m c) (argE m c) (argU m c) := by
  dsimp only [W9, hostOps3]; after_results_simp
  rw [W8_v3, W8_v47, W8_v1]; rfl

theorem W10_v58 : W10 m ρ c (Proc.devRef .tc main_v58) = val_main_v62 (argX m c) (argE m c) (argU m c) :=
  (W10_arr m ρ c 2).trans ((region3_value (V9 m ρ) c).trans (by
    show scaleRows (W9 m ρ c (Proc.devRef .tc main_v57)) (W9 m ρ c (Proc.devRef .tc main_v28)) = _
    rw [W9_v57, W9_v28]; rfl))
theorem W10_arg0 : W10 m ρ c (Proc.devRef .tc main_arg0) = argX m c :=
  (W10_of_ne m ρ c main_arg0 (by decide)).trans (W9_arg0 m ρ c)
theorem W10_v3 : W10 m ρ c (Proc.devRef .tc main_v3) = val_main_v3 (argE m c) :=
  (W10_of_ne m ρ c main_v3 (by decide)).trans (W9_v3 m ρ c)
theorem W10_v39 : W10 m ρ c (Proc.devRef .tc main_v39) = val_main_v39 (argX m c) (argE m c) (argU m c) :=
  (W10_of_ne m ρ c main_v39 (by decide)).trans (W9_v39 m ρ c)
theorem W10_v50 : W10 m ρ c (Proc.devRef .tc main_v50) = val_main_v52 (argX m c) (argE m c) (argU m c) :=
  (W10_of_ne m ρ c main_v50 (by decide)).trans (W9_v50 m ρ c)

/-! ## The third sum, the mean row, and the assembly -/

theorem W11_arg0 : W11 m ρ c (Proc.devRef .tc main_arg0) = argX m c := by
  dsimp only [W11, hostOps4]; after_results_simp; exact W10_arg0 m ρ c
theorem W11_v39 : W11 m ρ c (Proc.devRef .tc main_v39) = val_main_v39 (argX m c) (argE m c) (argU m c) := by
  dsimp only [W11, hostOps4]; after_results_simp; exact W10_v39 m ρ c
theorem W11_v50 : W11 m ρ c (Proc.devRef .tc main_v50) = val_main_v52 (argX m c) (argE m c) (argU m c) := by
  dsimp only [W11, hostOps4]; after_results_simp; exact W10_v50 m ρ c
/-- The third hop. -/
theorem W11_v61 : W11 m ρ c (Proc.devRef .tc main_v61) = val_main_v65 (argX m c) (argE m c) (argU m c) := by
  dsimp only [W11, hostOps4]; after_results_simp
  rw [W10_v3, W10_v58]; rfl
/-- The mean row of the features: the column sums over the 50000 nodes, divided by 50000. -/
theorem W11_v65 : W11 m ρ c (Proc.devRef .tc main_v65) = val_main_v69 (argX m c) := by
  dsimp only [W11, hostOps4]; after_results_simp
  rw [W10_arg0]; rfl

/-- THE KERNEL PROGRAM'S RESULT: after the last region the result array is the reference's last stage of the three
    arguments — the features, the three hops and the repeated mean row side by side. -/
theorem kernel_value : W12 m ρ c (Proc.devRef .tc main_v66) = val_main_v71 (argX m c) (argE m c) (argU m c) :=
  (W12_arr m ρ c 5).trans ((region4_value (V11 m ρ) c).trans (by
    show assemble (W11 m ρ c (Proc.devRef .tc main_arg0)) (W11 m ρ c (Proc.devRef .tc main_v39))
      (W11 m ρ c (Proc.devRef .tc main_v50)) (W11 m ρ c (Proc.devRef .tc main_v61))
      (W11 m ρ c (Proc.devRef .tc main_v65)) = _
    rw [W11_arg0, W11_v39, W11_v50, W11_v61, W11_v65]; rfl))

end Cert.KernelIdeal.Val

end
-- ==== Proof.lean ====
/-
  The five claims for the three-hop graph propagation kernel against its plain reference.

  Both programs compute, from node features `x`, edge endpoints `e` and raw edge weights `u`: the in-degree
  `deg n = Σ_{k : dst k = n} u k`, its inverse root `dinv` (zero where the degree is not positive), the normalised
  edge weight `w k = (dinv (src k) · u k) · dinv (dst k)`, three hops `x ↦ (n ↦ Σ_{k : dst k = n} x (src k) · w k)`,
  the mean row of `x`, and the five blocks `[x | hop¹ x | hop² x | hop³ x | mean]` side by side. The kernel program
  does the three dense passes (the weight product, the row scaling, the final assembly) in pipelined regions over
  row blocks and leaves the gathers and the sums per target node to host operations; the reference does all of it
  with host operations. No operation is reassociated and no constant differs, so the two results are the same
  term of the arguments at any float instance: the kernel's regions are read back as whole-array functions
  (`Region0` … `Region4`), threaded through the host stretches (`KernelValue`), and meet the reference's own stages.
  The frames of the two kernel programs are the generated ones; the reference's frame is its generated run with
  the result dropped; nothing was rewritten by the idealisation, so `preserves` is trivial.
-/
import proofs.«178034_j81200651698780_1_alg».proof.Defs
import proofs.«178034_j81200651698780_1_alg».proof.Proof.Gen.Kernel
import proofs.«178034_j81200651698780_1_alg».proof.Proof.Gen.Kernel.Skeleton
import proofs.«178034_j81200651698780_1_alg».proof.Proof.Gen.Kernel.Launch
import proofs.«178034_j81200651698780_1_alg».proof.Proof.Gen.Kernel.Points
import proofs.«178034_j81200651698780_1_alg».proof.Proof.Gen.Kernel.Frame
import proofs.«178034_j81200651698780_1_alg».proof.Proof.Gen.KernelIdeal
import proofs.«178034_j81200651698780_1_alg».proof.Proof.Gen.KernelIdeal.Skeleton
import proofs.«178034_j81200651698780_1_alg».proof.Proof.Gen.KernelIdeal.Launch
import proofs.«178034_j81200651698780_1_alg».proof.Proof.Gen.KernelIdeal.Points
import proofs.«178034_j81200651698780_1_alg».proof.Proof.Gen.KernelIdeal.Frame
import proofs.«178034_j81200651698780_1_alg».proof.Proof.Gen.ReferenceIdeal
import proofs.«178034_j81200651698780_1_alg».proof.Proof.Gen.Pre_finite_inputs
import proofs.«178034_j81200651698780_1_alg».proof.Proof.Gen.ReferenceIdeal.Run
import proofs.«178034_j81200651698780_1_alg».proof.Proof.Gen.ReferenceIdeal.Read
import proofs.«178034_j81200651698780_1_alg».proof.Proof.NamedRun
import proofs.«178034_j81200651698780_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealised kernel program runs and keeps its arguments. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's last stage of the arguments. -/
theorem algebraic : Cert.algebraic_KernelIdeal_ReferenceIdeal := by
  intro m ρ m' ρ' _ hagree
  refine ⟨fun c => Cert.ReferenceIdeal.Read.val_main_v71 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Val.kernel_value m ρ c), (h c).2⟩)
      (Cert.KernelIdeal.Val.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v71_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
